-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x3000 : Shape := ⟨3, ![16, 512, 3000]⟩
abbrev S16x512x2 : Shape := ⟨3, ![16, 512, 2]⟩
abbrev S16x512 : Shape := ⟨2, ![16, 512]⟩
abbrev S_ : Shape := ⟨0, ![]⟩

class Facts : Prop where
  bcast_S_S16x512x3000 : S_.BroadcastsInDim S16x512x3000 (![] : Fin 0 → Fin S16x512x3000.rank)
  reducesTo_S16x512x3000_S_d0_1_2 : S16x512x3000.ReducesTo [0, 1, 2] S_
  h_S_ : 0 < S_.numel
  bcast_S_S16x512x2 : S_.BroadcastsInDim S16x512x2 (![] : Fin 0 → Fin S16x512x2.rank)
  reducesTo_S16x512x2_S_d0_1_2 : S16x512x2.ReducesTo [0, 1, 2] S_
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S16x512x3000 .f32) (main_arg1 : FVec F S16x512x2 .f32) (main_arg2 : FVec F S16x512 .f32) : IVec S_ 1 :=
  let main_v0 : FVec F S16x512x3000 .f32 := Host.absf main_arg0
  let main_cst : FVec F S_ .f32 := constant S_ .f32 0x7F800000#32
  let main_v1 : FVec F S16x512x3000 .f32 := broadcastInDim S16x512x3000 ![] bcast_S_S16x512x3000 main_cst
  let main_v2 : IVec S16x512x3000 1 := cmpf .olt main_v0 main_v1
  let main_c : IVec S_ 1 := constantI S_ 1 1#1
  let main_v3 : IVec S_ 1 := (fun x v => Host.reduce IntOp.andi x v reducesTo_S16x512x3000_S_d0_1_2 h_S_) main_v2 main_c
  let main_v4 : FVec F S16x512x2 .f32 := Host.absf main_arg1
  let main_cst_0 : FVec F S_ .f32 := constant S_ .f32 0x7F800000#32
  let main_v5 : FVec F S16x512x2 .f32 := broadcastInDim S16x512x2 ![] bcast_S_S16x512x2 main_cst_0
  let main_v6 : IVec S16x512x2 1 := cmpf .olt main_v4 main_v5
  let main_c_1 : IVec S_ 1 := constantI S_ 1 1#1
  let main_v7 : IVec S_ 1 := (fun x v => Host.reduce IntOp.andi x v reducesTo_S16x512x2_S_d0_1_2 h_S_) main_v6 main_c_1
  let main_v8 : IVec S_ 1 := andi main_v3 main_v7
  let main_v9 : FVec F S16x512 .f32 := Host.absf main_arg2
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_c_3 : IVec S_ 1 := constantI S_ 1 1#1
  let main_v12 : IVec S_ 1 := (fun x v => Host.reduce IntOp.andi x v reducesTo_S16x512_S_d0_1 h_S_) main_v11 main_c_3
  let main_v13 : IVec S_ 1 := andi main_v8 main_v12
  main_v13
-- ==== Kernel.lean ====
abbrev S16x512x3000 : Shape := ⟨3, ![16, 512, 3000]⟩
abbrev S16x512x2 : Shape := ⟨3, ![16, 512, 2]⟩
abbrev S16x512 : Shape := ⟨2, ![16, 512]⟩
abbrev S8192x3000 : Shape := ⟨2, ![8192, 3000]⟩
abbrev S8192x2 : Shape := ⟨2, ![8192, 2]⟩
abbrev S8192x1 : Shape := ⟨2, ![8192, 1]⟩
abbrev S512x3000 : Shape := ⟨2, ![512, 3000]⟩
abbrev S512x2 : Shape := ⟨2, ![512, 2]⟩
abbrev S512x1 : Shape := ⟨2, ![512, 1]⟩
abbrev S512 : Shape := ⟨1, ![512]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S16x512x3000, .f32⟩
  | .hbm, ⟨1, _⟩ => ⟨S16x512x2, .f32⟩
  | .hbm, ⟨2, _⟩ => ⟨S16x512, .f32⟩
  | .hbm, ⟨3, _⟩ => ⟨S8192x3000, .f32⟩
  | .hbm, ⟨4, _⟩ => ⟨S8192x2, .f32⟩
  | .hbm, ⟨5, _⟩ => ⟨S8192x1, .f32⟩
  | .hbm, ⟨6, _⟩ => ⟨S8192x1, .f32⟩
  | .hbm, ⟨7, _⟩ => ⟨S16x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x3000, .f32⟩
  | .local _ .vmem, ⟨1, _⟩ => ⟨S512x3000, .f32⟩
  | .local _ .vmem, ⟨2, _⟩ => ⟨S512x2, .f32⟩
  | .local _ .vmem, ⟨3, _⟩ => ⟨S512x2, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | _, _ => ⟨S16x512x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x512x3000_S8192x3000 : S16x512x3000.ShapeCasts S8192x3000
  shapeCasts_S16x512x2_S8192x2 : S16x512x2.ShapeCasts S8192x2
  shapeCasts_S16x512_S8192x1 : S16x512.ShapeCasts S8192x1
  inb_S512x2_S512x1_0_0 : ∀ a, (![0, 0] : Fin 2 → Nat) a + S512x1.size a ≤ S512x2.size a
  h_S512x1 : 0 < S512x1.numel
  shapeCasts_S512x1_S512x1 : S512x1.ShapeCasts S512x1
  inb_S512x2_S512x1_0_1 : ∀ a, (![0, 1] : Fin 2 → Nat) a + S512x1.size a ≤ S512x2.size a
  iota_S512x3000_d1_w32 : S512x3000.Iotas .tc 32 [1]
  broadcasts_S512x1_S512x3000 : S512x1.Broadcasts S512x3000
  inb_S512x3000_S512x3000_0_0 : ∀ a, (![0, 0] : Fin 2 → Nat) a + S512x3000.size a ≤ S512x3000.size a
  h_S512x3000 : 0 < S512x3000.numel
  shapeCasts_S512x3000_S512x3000 : S512x3000.ShapeCasts S512x3000
  reduces_S512x3000_S512 : S512x3000.Reduces [1] S512
  shapeCasts_S512_S512x1 : S512.ShapeCasts S512x1
  inb_S512x1_S512x1_0_0 : ∀ a, (![0, 0] : Fin 2 → Nat) a + S512x1.size a ≤ S512x1.size a
  shapeCasts_S8192x1_S16x512 : S8192x1.ShapeCasts S16x512
  reducesTo_S16x512_S_d0_1 : S16x512.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3000.size a ≤ S8192x3000.size a
  hwx0_0 : ∀ i : grid0.Coords, EltTy.bits .f32 = 32 ∨ (Rect.block (s := S8192x3000) S512x3000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S8192x2.size a
  hwx0_1 : ∀ i : grid0.Coords, EltTy.bits .f32 = 32 ∨ (Rect.block (s := S8192x2) S512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

abbrev win0_0 : Pipeline.Window sig grid0 :=
  Pipeline.Window.ofSpec (Memref.whole main_v0) S512x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x3000 : Shape := ⟨3, ![16, 512, 3000]⟩
abbrev S16x512x2 : Shape := ⟨3, ![16, 512, 2]⟩
abbrev S16x512 : Shape := ⟨2, ![16, 512]⟩
abbrev S16x512x1 : Shape := ⟨3, ![16, 512, 1]⟩
abbrev S_ : Shape := ⟨0, ![]⟩
abbrev S3000 : Shape := ⟨1, ![3000]⟩
abbrev S1x1x3000 : Shape := ⟨3, ![1, 1, 3000]⟩

abbrev nBuf : Space → Nat
  | .hbm => 140
  | .vmem => 0
  | .smem => 0
  | _ => 0

abbrev hbmTy0_0 (i : Nat) : BufTy := match i % 128 with
  | 0 => ⟨S16x512x3000, .f32⟩
  | 1 => ⟨S16x512x2, .f32⟩
  | 2 => ⟨S16x512, .f32⟩
  | 3 => ⟨S16x512x1, .f32⟩
  | 4 => ⟨S16x512, .f32⟩
  | 5 => ⟨S_, .f32⟩
  | 6 => ⟨S16x512, .f32⟩
  | 7 => ⟨S16x512, .f32⟩
  | 8 => ⟨S16x512, .i32⟩
  | 9 => ⟨S16x512x1, .f32⟩
  | 10 => ⟨S16x512, .f32⟩
  | 11 => ⟨S_, .f32⟩
  | 12 => ⟨S16x512, .f32⟩
  | 13 => ⟨S16x512, .f32⟩
  | 14 => ⟨S16x512, .i32⟩
  | 15 => ⟨S_, .i32⟩
  | 16 => ⟨S_, .i32⟩
  | 17 => ⟨S_, .i32⟩
  | 18 => ⟨S16x512, .i32⟩
  | 19 => ⟨S16x512, .i32⟩
  | 20 => ⟨S_, .i32⟩
  | 21 => ⟨S16x512, .i32⟩
  | 22 => ⟨S16x512, .i32⟩
  | 23 => ⟨S_, .i32⟩
  | 24 => ⟨S16x512, .i32⟩
  | 25 => ⟨S16x512, .i32⟩
  | 26 => ⟨S_, .i32⟩
  | 27 => ⟨S16x512, .i32⟩
  | 28 => ⟨S16x512, .i32⟩
  | 29 => ⟨S_, .i32⟩
  | 30 => ⟨S16x512, .i32⟩
  | 31 => ⟨S16x512, .i32⟩
  | 32 => ⟨S16x512, .i32⟩
  | 33 => ⟨S3000, .i32⟩
  | 34 => ⟨S16x512x1, .i32⟩
  | 35 => ⟨S16x512x1, .i32⟩
  | 36 => ⟨S1x1x3000, .i32⟩
  | 37 => ⟨S16x512x3000, .i32⟩
  | 38 => ⟨S16x512x3000, .i32⟩
  | 39 => ⟨S16x512x3000, .i1⟩
  | 40 => ⟨S1x1x3000, .i32⟩
  | 41 => ⟨S16x512x3000, .i32⟩
  | 42 => ⟨S16x512x3000, .i32⟩
  | 43 => ⟨S16x512x3000, .i1⟩
  | 44 => ⟨S16x512x3000, .i1⟩
  | 45 => ⟨S_, .i32⟩
  | 46 => ⟨S16x512x1, .i32⟩
  | 47 => ⟨S16x512x1, .i32⟩
  | 48 => ⟨S1x1x3000, .i32⟩
  | 49 => ⟨S16x512x3000, .i32⟩
  | 50 => ⟨S16x512x3000, .i32⟩
  | 51 => ⟨S16x512x3000, .i1⟩
  | 52 => ⟨S1x1x3000, .i32⟩
  | 53 => ⟨S16x512x3000, .i32⟩
  | 54 => ⟨S16x512x3000, .i32⟩
  | 55 => ⟨S16x512x3000, .i1⟩
  | 56 => ⟨S16x512x3000, .i1⟩
  | 57 => ⟨S1x1x3000, .i32⟩
  | 58 => ⟨S16x512x3000, .i32⟩
  | 59 => ⟨S16x512x3000, .i32⟩
  | 60 => ⟨S16x512x3000, .i32⟩
  | 61 => ⟨S_, .i32⟩
  | 62 => ⟨S16x512x3000, .i32⟩
  | 63 => ⟨S16x512x3000, .i32⟩
  | 64 => ⟨S_, .i32⟩
  | 65 => ⟨S16x512x3000, .i32⟩
  | 66 => ⟨S16x512x3000, .i32⟩
  | 67 => ⟨S16x512x3000, .f32⟩
  | 68 => ⟨S_, .f32⟩
  | 69 => ⟨S16x512x3000, .f32⟩
  | 70 => ⟨S16x512x3000, .f32⟩
  | 71 => ⟨S1x1x3000, .i32⟩
  | 72 => ⟨S16x512x3000, .i32⟩
  | 73 => ⟨S16x512x3000, .i32⟩
  | 74 => ⟨S16x512x3000, .i1⟩
  | 75 => ⟨S_, .i32⟩
  | 76 => ⟨S16x512x1, .i32⟩
  | 77 => ⟨S16x512x1, .i32⟩
  | 78 => ⟨S1x1x3000, .i32⟩
  | 79 => ⟨S16x512x3000, .i32⟩
  | 80 => ⟨S16x512x3000, .i32⟩
  | 81 => ⟨S16x512x3000, .i1⟩
  | 82 => ⟨S16x512x3000, .i1⟩
  | 83 => ⟨S1x1x3000, .i32⟩
  | 84 => ⟨S16x512x3000, .i32⟩
  | 85 => ⟨S16x512x3000, .i32⟩
  | 86 => ⟨S16x512x3000, .i32⟩
  | 87 => ⟨S_, .i32⟩
  | 88 => ⟨S16x512x3000, .i32⟩
  | 89 => ⟨S16x512x3000, .i32⟩
  | 90 => ⟨S16x512x3000, .f32⟩
  | 91 => ⟨S_, .f32⟩
  | 92 => ⟨S16x512x3000, .f32⟩
  | 93 => ⟨S16x512x3000, .f32⟩
  | 94 => ⟨S_, .f32⟩
  | 95 => ⟨S16x512x3000, .f32⟩
  | 96 => ⟨S16x512x3000, .f32⟩
  | 97 => ⟨S_, .f32⟩
  | 98 => ⟨S_, .f32⟩
  | 99 => ⟨S16x512x3000, .f32⟩
  | 100 => ⟨S16x512x3000, .f32⟩
  | 101 => ⟨S16x512x3000, .f32⟩
  | 102 => ⟨S_, .f32⟩
  | 103 => ⟨S_, .f32⟩
  | 104 => ⟨S16x512x3000, .f32⟩
  | 105 => ⟨S16x512x3000, .f32⟩
  | 106 => ⟨S16x512x3000, .f32⟩
  | 107 => ⟨S_, .f32⟩
  | 108 => ⟨S16x512, .f32⟩
  | 109 => ⟨S16x512x1, .f32⟩
  | 110 => ⟨S16x512x1, .f32⟩
  | 111 => ⟨S_, .f32⟩
  | 112 => ⟨S16x512x1, .f32⟩
  | 113 => ⟨S16x512x1, .f32⟩
  | 114 => ⟨S16x512x3000, .f32⟩
  | 115 => ⟨S_, .f32⟩
  | 116 => ⟨S16x512, .f32⟩
  | 117 => ⟨S16x512x1, .f32⟩
  | 118 => ⟨S16x512x1, .f32⟩
  | 119 => ⟨S_, .f32⟩
  | 120 => ⟨S16x512x1, .f32⟩
  | 121 => ⟨S16x512x1, .f32⟩
  | 122 => ⟨S16x512x3000, .f32⟩
  | 123 => ⟨S16x512x3000, .f32⟩
  | 124 => ⟨S16x512x3000, .f32⟩
  | 125 => ⟨S16x512x3000, .f32⟩
  | 126 => ⟨S16x512x3000, .f32⟩
  | 127 => ⟨S_, .f32⟩
  | _ => ⟨S16x512x3000, .f32⟩

abbrev hbmTy0_1 (i : Nat) : BufTy := match i % 128 with
  | 0 => ⟨S16x512, .f32⟩
  | 1 => ⟨S_, .f32⟩
  | 2 => ⟨S16x512, .f32⟩
  | 3 => ⟨S16x512, .f32⟩
  | 4 => ⟨S16x512, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S16x512x3000, .f32⟩

abbrev hbmTy (i : Nat) : BufTy := match i / 128 with
  | 0 => hbmTy0_0 i
  | 1 => hbmTy0_1 i
  | _ => ⟨S16x512x3000, .f32⟩

abbrev bufTy : (tb : Table) → Fin (tcTables nBuf tb) → BufTy
  | .hbm, ⟨i, _⟩ => hbmTy i
  | _, _ => ⟨S16x512x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_10 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_cst_12 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_call1_v0 : Ref sig .tc := ⟨.hbm, 98, rfl⟩
abbrev main_call1_v1 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_call3_v0 : Ref sig .tc := ⟨.hbm, 103, rfl⟩
abbrev main_call3_v1 : Ref sig .tc := ⟨.hbm, 104, rfl⟩
abbrev main_v76 : Ref sig .tc := ⟨.hbm, 105, rfl⟩
abbrev main_call4_v0 : Ref sig .tc := ⟨.hbm, 106, rfl⟩
abbrev main_call4_cst : Ref sig .tc := ⟨.hbm, 107, rfl⟩
abbrev main_call4_v1 : Ref sig .tc := ⟨.hbm, 108, rfl⟩
abbrev main_call4_v2 : Ref sig .tc := ⟨.hbm, 109, rfl⟩
abbrev main_v77 : Ref sig .tc := ⟨.hbm, 110, rfl⟩
abbrev main_cst_15 : Ref sig .tc := ⟨.hbm, 111, rfl⟩
abbrev main_v78 : Ref sig .tc := ⟨.hbm, 112, rfl⟩
abbrev main_v79 : Ref sig .tc := ⟨.hbm, 113, rfl⟩
abbrev main_call5_v0 : Ref sig .tc := ⟨.hbm, 114, rfl⟩
abbrev main_call5_cst : Ref sig .tc := ⟨.hbm, 115, rfl⟩
abbrev main_call5_v1 : Ref sig .tc := ⟨.hbm, 116, rfl⟩
abbrev main_call5_v2 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_19 : Ref sig .tc := ⟨.hbm, 133, rfl⟩
abbrev main_v92 : Ref sig .tc := ⟨.hbm, 134, rfl⟩
abbrev main_cst_20 : Ref sig .tc := ⟨.hbm, 135, rfl⟩
abbrev main_v93 : Ref sig .tc := ⟨.hbm, 136, rfl⟩
abbrev main_cst_21 : Ref sig .tc := ⟨.hbm, 137, rfl⟩
abbrev main_v94 : Ref sig .tc := ⟨.hbm, 138, rfl⟩
abbrev main_v95 : Ref sig .tc := ⟨.hbm, 139, rfl⟩

abbrev nD : Nat := 1
abbrev τ : Topo := Topo.v7x

variable {F : FTy → Type} [FloatOps F]

class Facts₀ : Prop where
  slices_S16x512x2_S16x512x1_0_0_0 : S16x512x2.Slices ![0, 0, 0] S16x512x1
  shapeCasts_S16x512x1_S16x512 : S16x512x1.ShapeCasts S16x512
  bcast_S_S16x512 : S_.BroadcastsInDim S16x512 (![] : Fin 0 → Fin S16x512.rank)
  slices_S16x512x2_S16x512x1_0_0_1 : S16x512x2.Slices ![0, 0, 1] S16x512x1
  bcast_S16x512_S16x512x1_0_1 : S16x512.BroadcastsInDim S16x512x1 (![0, 1] : Fin 2 → Fin S16x512x1.rank)
  bcast_S3000_S1x1x3000_2 : S3000.BroadcastsInDim S1x1x3000 (![2] : Fin 1 → Fin S1x1x3000.rank)
  bcast_S1x1x3000_S16x512x3000_0_1_2 : S1x1x3000.BroadcastsInDim S16x512x3000 (![0, 1, 2] : Fin 3 → Fin S16x512x3000.rank)
  bcast_S16x512x1_S16x512x3000_0_1_2 : S16x512x1.BroadcastsInDim S16x512x3000 (![0, 1, 2] : Fin 3 → Fin S16x512x3000.rank)
  bcast_S_S16x512x1 : S_.BroadcastsInDim S16x512x1 (![] : Fin 0 → Fin S16x512x1.rank)
  bcast_S_S16x512x3000 : S_.BroadcastsInDim S16x512x3000 (![] : Fin 0 → Fin S16x512x3000.rank)
  reducesTo_S16x512x3000_S16x512_d2 : S16x512x3000.ReducesTo [2] S16x512
  h_S_ : 0 < S_.numel
  reducesTo_S16x512_S_d0_1 : S16x512.ReducesTo [0, 1] S_

variable [Facts₀]

class Facts : Prop extends Facts₀ where

variable [Facts]
-- ==== Proof.RowLoss.lean ====
/-
  The alignment loss of ONE token, as mathematics over the extended reals.

  A token has a start and an end time. Multiplied by the frame rate 12.5 and cut toward zero they give a first frame
  `s`, kept inside [0, 2999], and an end frame `e = max (s + 1) (min (end + 1) 3000)`. The target attention of the
  token over the 3000 frames is a trapezoid: 1 on [s, e); the ramp (j - s + 5) / 5 on the four frames before `s`;
  the ramp 1 - (j - e + 1) / 5 on the four frames from `e` on; 0 elsewhere. With `p` the predicted attention of
  the token and `g` the trapezoid, the loss of the token is (1 - cos) · mask, where the cosine is written in two ways:
    * the quotient form      (Σ p g) / (‖p‖ · ‖g‖),
    * the normalised form     Σ (p / ‖p‖) · (g / ‖g‖),
  each norm being max (√ Σ x²) ε with ε the float nearest 1e-8. Both norms are real and at least ε > 0, so when every
  `p k` and every `g k` is a real number the two forms are one number: the common factor 1 / (‖p‖ ‖g‖) moves out of a
  sum of reals (`row_eq`). Over the extended reals this is where finiteness is used: a factor does not move across a
  sum that holds both infinities.
-/
import Idealize.ShloMosaic.PureOps.Ideal
import Idealize.ShloMosaic.PureOps.Ideal.Laws
import Idealize.ShloMosaic.Lib.ValueIdx

noncomputable section

namespace Cert.RowLoss

open Idealize.ShloMosaic
open scoped BigOperators

/-! ## The float words of the two programs, as extended reals -/

/-- `1.0` denotes 1. -/
theorem one_eq : Ideal.ofBits .f32 0x3F800000#32 = ((1 : ℝ) : EReal) := by
  simp [Ideal.ofBits, Ideal.ieee, -EReal.coe_mul]; norm_num

/-- `5.0` denotes 5. -/
theorem five_eq : Ideal.ofBits .f32 0x40A00000#32 = ((5 : ℝ) : EReal) := by
  simp [Ideal.ofBits, Ideal.ieee, -EReal.coe_mul]; norm_num

/-- The float nearest 1e-8 denotes a positive real. -/
theorem eps_pos : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

/-! ## A token's frames and its trapezoid -/

/-- The first frame of a token with start time `a`: `a · 12.5` cut toward zero, kept inside [0, 2999]. -/
def tokStart (a : EReal) : BitVec 32 :=
  IntOp.minsi 2999#32 (IntOp.maxsi 0#32 (Ideal.fptosi 32 (a * Ideal.ofBits .f32 0x41480000#32)))

/-- The end frame of a token with start time `a` and end time `b`: at least one frame after the first, at most 3000. -/
def tokEnd (a b : EReal) : BitVec 32 :=
  IntOp.maxsi (IntOp.addi (tokStart a) 1#32)
    (IntOp.minsi (IntOp.addi (Ideal.fptosi 32 (b * Ideal.ofBits .f32 0x41480000#32)) 1#32) 3000#32)

/-- The target attention at frame `j` of a token with frames [s, e): the trapezoid. -/
def trapezoid (s e j : BitVec 32) : EReal :=
  Scalar.select (IntOp.andi (IntOp.cmpi .sge j s) (IntOp.cmpi .slt j e)) (Ideal.ofBits .f32 0x3F800000#32)
    (Scalar.select (IntOp.andi (IntOp.cmpi .sge j (IntOp.subi s 4#32)) (IntOp.cmpi .slt j s))
      (Ideal.div (((IntOp.addi (IntOp.addi (IntOp.subi j s) 4#32) 1#32).toInt : ℝ) : EReal) (Ideal.ofBits .f32 0x40A00000#32))
      (Scalar.select (IntOp.andi (IntOp.cmpi .sge j e) (IntOp.cmpi .slt j (IntOp.addi e 4#32)))
        (Ideal.ofBits .f32 0x3F800000#32
          - Ideal.div (((IntOp.addi (IntOp.subi j e) 1#32).toInt : ℝ) : EReal) (Ideal.ofBits .f32 0x40A00000#32))
        (Ideal.ofBits .f32 0x00000000#32)))

/-- Every value of the trapezoid is a real number: 1, an integer over 5, 1 minus an integer over 5, or 0. -/
theorem trapezoid_real (s e j : BitVec 32) : ∃ r : ℝ, trapezoid s e j = (r : EReal) := by
  unfold trapezoid Scalar.select
  rw [one_eq, five_eq, Ideal.ofBits_zero_f32]
  simp only [Ideal.div_coe (by norm_num : (5 : ℝ) ≠ 0)]
  split_ifs
  · exact ⟨1, rfl⟩
  · exact ⟨_, (EReal.coe_mul _ _).symm⟩
  · exact ⟨1 - _ * _, by rw [EReal.coe_sub, EReal.coe_mul]⟩
  · exact ⟨0, rfl⟩

/-! ## The loss of a token, in the two forms -/

/-- The quotient form: (1 - (Σ p g) / (‖p‖ · ‖g‖)) · mask. -/
def rowK (p g : Fin 3000 → EReal) (μ : EReal) : EReal :=
  (Ideal.ofBits .f32 0x3F800000#32
    - Ideal.div (∑ k, p k * g k)
        (max (Ideal.sqrt (∑ k, p k * p k)) (Ideal.ofBits .f32 0x322BCC77#32)
          * max (Ideal.sqrt (∑ k, g k * g k)) (Ideal.ofBits .f32 0x322BCC77#32))) * μ

/-- The normalised form: (1 - Σ (p / ‖p‖) · (g / ‖g‖)) · mask. -/
def rowR (p g : Fin 3000 → EReal) (μ : EReal) : EReal :=
  (Ideal.ofBits .f32 0x3F800000#32
    - ∑ k, Ideal.div (p k) (max (Ideal.sqrt (∑ k, p k * p k)) (Ideal.ofBits .f32 0x322BCC77#32))
        * Ideal.div (g k) (max (Ideal.sqrt (∑ k, g k * g k)) (Ideal.ofBits .f32 0x322BCC77#32))) * μ

/-- A finite sum of reals, read in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The clamped norm max (√x) ε of a real `x` is a nonzero real (it is at least ε; for a negative `x`, which a sum of
    squares never is, the square root's junk value is the bottom and the maximum is ε itself). -/
theorem norm_real (x : ℝ) : ∃ a : ℝ, a ≠ 0 ∧ max (Ideal.sqrt (x : EReal)) (Ideal.ofBits .f32 0x322BCC77#32) = (a : EReal) := by
  obtain ⟨e, he0, he⟩ := eps_pos
  rw [he, Ideal.sqrt_coe]
  split_ifs with h
  · exact ⟨e, he0.ne', max_eq_right bot_le⟩
  · exact ⟨max (Real.sqrt x) e, (lt_max_of_lt_right he0).ne', (EReal.coe_strictMono.monotone.map_max).symm⟩

/-- With real entries the quotient form and the normalised form of a token's loss are one number. -/
theorem row_eq (p g : Fin 3000 → EReal) (μ : EReal) (hp : ∀ k, ∃ r : ℝ, p k = (r : EReal))
    (hg : ∀ k, ∃ r : ℝ, g k = (r : EReal)) : rowK p g μ = rowR p g μ := by
  choose p' hp' using hp
  choose g' hg' using hg
  obtain rfl : p = fun k => (p' k : EReal) := funext hp'
  obtain rfl : g = fun k => (g' k : EReal) := funext hg'
  unfold rowK rowR
  simp only [← EReal.coe_mul, coe_sum]
  obtain ⟨b, hb0, hb⟩ := norm_real (∑ k, p' k * p' k)
  obtain ⟨a, ha0, ha⟩ := norm_real (∑ k, g' k * g' k)
  rw [hb, ha, ← EReal.coe_mul, Ideal.div_coe (mul_ne_zero hb0 ha0)]
  simp only [Ideal.div_coe hb0, Ideal.div_coe ha0, ← EReal.coe_mul, coe_sum]
  congr 3
  rw [Finset.sum_mul]
  refine Finset.sum_congr rfl fun k _ => ?_
  field_simp

end Cert.RowLoss

end
-- ==== Proof.KernelRow.lean ====
/-
  What the kernel's body leaves in its output block, read at one row.

  A grid point holds 512 tokens: a [512, 3000] block of predicted attention, a [512, 2] block of (start, end) times
  and a [512, 1] block of the mask. The body builds each token's trapezoid over the 3000 frames from the token's
  two times alone, takes the three sums over the frames (p·g, p·p, g·g) and stores, for token r of the block,
      (1 - (Σ p g) / (max (√ Σ p²) ε · max (√ Σ g²) ε)) · mask r :
  the quotient form of the token's loss (`Cert.RowLoss.rowK`), of row r of the three blocks.
-/
import proofs.«127680_j58050777972822_1_alg».proof.Proof.Gen.KernelIdeal.Frame
import proofs.«127680_j58050777972822_1_alg».proof.Proof.RowLoss
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Cert.RowLoss
open scoped BigOperators

theorem hz : (![0, 0] : Fin 2 → Nat) = fun _ => 0 := funext fun a => by fin_cases a <;> rfl

/-! ## Layout operations of the body, read at an index -/

section Layout
variable {α : Type}

/-- A column broadcast along the frames: entry (r, k) is the column's entry r. -/
theorem bcast_col (x : S512x1.Idx → α) (r : Fin 512) (k : Fin 3000) :
    broadcastTo S512x3000 x broadcasts_S512x1_S512x3000 (ix2 r k) = x (ix2 r 0) :=
  broadcastTo_apply x broadcasts_S512x1_S512x3000 (ix2 r k) (ix2 r 0) (fun a => match a with
    | ⟨0, _⟩ => by show r.val = if (512 : Nat) = 1 then 0 else r.val; rw [if_neg (by decide)]
    | ⟨1, _⟩ => by show 0 = if (1 : Nat) = 1 then 0 else k.val; rw [if_pos rfl])

/-- The frame counter: entry (r, k) is k. -/
theorem iota_row (r : Fin 512) (k : Fin 3000) :
    iota .tc S512x3000 32 [1] iota_S512x3000_d1_w32 (ix2 r k) = BitVec.ofNat 32 k.val :=
  iota_single_apply .tc S512x3000 32 1 iota_S512x3000_d1_w32 (ix2 r k)

/-- Column 0 of a [512, 2] block, as a [512, 1] vector. -/
theorem ld_col0 {F : FTy → Type} [FloatOps F] (x1 : Vec F S512x2 .f32) (r : Fin 512) : View.ld x1 r0_0 (ix2 r 0) = x1 (ix2 r 0) := by
  show x1 (r0_0.emb (ix2 r 0)) = x1 (ix2 r 0)
  congr 1; funext a; apply Fin.ext
  simp only [Rect.emb_apply, Rect.off_unit, Rect.stride_unit, Nat.one_mul]
  match a with
  | ⟨0, _⟩ => show 0 + r.val = r.val; omega
  | ⟨1, _⟩ => show 0 + 0 = 0; rfl

/-- Column 1 of a [512, 2] block, as a [512, 1] vector. -/
theorem ld_col1 {F : FTy → Type} [FloatOps F] (x1 : Vec F S512x2 .f32) (r : Fin 512) : View.ld x1 r0_1 (ix2 r 0) = x1 (ix2 r 1) := by
  show x1 (r0_1.emb (ix2 r 0)) = x1 (ix2 r 1)
  congr 1; funext a; apply Fin.ext
  simp only [Rect.emb_apply, Rect.off_unit, Rect.stride_unit, Nat.one_mul]
  match a with
  | ⟨0, _⟩ => show 0 + r.val = r.val; omega
  | ⟨1, _⟩ => show 1 + 0 = 1; rfl

end Layout

/-- A square root of a vector, at an index. -/
theorem sqrt_apply {s : Shape} {φ : FTy} (a : FVec Ideal s φ) (i : s.Idx) : sqrt a i = Ideal.sqrt (a i) := rfl

/-- A sum over the frames kept as a column: entry (r, 0) is the sum of row r. -/
theorem sum_row (y : FVec Ideal S512x3000 .f32) (r : Fin 512) :
    shapeCast S512x1 (multiReduction .add [1] S512 y 0x00000000#32 reduces_S512x3000_S512 (.inl rfl) rfl) shapeCasts_S512_S512x1 (ix2 r 0)
      = ∑ k : Fin 3000, y (ix2 r k) := by
  refine (shapeCast_apply _ shapeCasts_S512_S512x1 (ix2 r 0) (ix1 r) ?_).trans ?_
  · rw [Shape.rowMajor_val_one, Shape.rowMajor_val_two]
    show r.val = r.val * 1 + 0
    omega
  · refine (Ideal.multiReduction_add_single y 0x00000000#32 reduces_S512x3000_S512 (.inl rfl) rfl (ix1 r)).trans ?_
    show ∑ k : Fin 3000, y (reduces_S512x3000_S512.lift (ix1 r) k) = _
    refine Finset.sum_congr rfl fun k _ => congrArg y ?_
    funext a; apply Fin.ext
    match a with
    | ⟨0, _⟩ => rfl
    | ⟨1, _⟩ => rfl

/-! ## The target attention of a block -/

/-- The target attention of the 512 tokens of a block over the 3000 frames, from the two columns of times: the body's
    nested selects, the innermost first (the falling ramp, then the rising ramp, then the plateau). -/
def gtBlock {F : FTy → Type} [FloatOps F] (v0 v2 : Vec F S512x1 .f32) : FVec F S512x3000 .f32 :=
  select (k0_pay3 v0 v2) (broadcast S512x3000 (FloatOps.ofBits .f32 0x3F800000#32))
    (select (k0_pay4 v0) (k0_pay5 v0)
      (select
        (andi (cmpi .sge (iota .tc S512x3000 32 [1] iota_S512x3000_d1_w32) (k0_pay6 v0 v2))
          (cmpi .slt (iota .tc S512x3000 32 [1] iota_S512x3000_d1_w32)
            (broadcastTo S512x3000 (addi (k0_pay2 v0 v2) (broadcast S512x1 4#32)) broadcasts_S512x1_S512x3000)))
        (subf (broadcast S512x3000 (FloatOps.ofBits .f32 0x3F800000#32))
          (divf
            (sitofp .f32
              (addi
                (subi (iota .tc S512x3000 32 [1] iota_S512x3000_d1_w32)
                  (broadcastTo S512x3000 (k0_pay2 v0 v2) broadcasts_S512x1_S512x3000))
                (broadcast S512x3000 1#32)))
            (broadcast S512x3000 (FloatOps.ofBits .f32 0x40A00000#32))))
        (broadcast S512x3000 (FloatOps.ofBits .f32 0x00000000#32))))

/-- Entry (r, k) of the target attention is the trapezoid of token r's frames at frame k. -/
theorem gt_apply (v0 v2 : Vec Ideal S512x1 .f32) (r : Fin 512) (k : Fin 3000) :
    gtBlock (F := Ideal) v0 v2 (ix2 r k)
      = trapezoid (tokStart (v0 (ix2 r 0))) (tokEnd (v0 (ix2 r 0)) (v2 (ix2 r 0))) (BitVec.ofNat 32 k.val) := by
  unfold gtBlock k0_pay3 k0_pay4 k0_pay5 k0_pay6 k0_pay2 k0_pay1
  dsimp only
  simp only [select, cmpi, andi, addi, subi, maxsi, minsi, sitofp, fptosi, subf, divf, mulf, broadcast, shapeCast_self,
    bcast_col]
  rw [iota_row]
  rfl

/-! ## The block the body leaves, at a row -/

theorem out_row (x0 : Vec Ideal S512x3000 .f32) (x1 : Vec Ideal S512x2 .f32) (x2 : Vec Ideal S512x1 .f32) (r : Fin 512) :
    out0_3 (F := Ideal) x0 x1 x2 (ix2 r 0)
      = rowK (fun k => x0 (ix2 r k))
          (fun k => trapezoid (tokStart (x1 (ix2 r 0))) (tokEnd (x1 (ix2 r 0)) (x1 (ix2 r 1))) (BitVec.ofNat 32 k.val))
          (x2 (ix2 r 0)) := by
  unfold out0_3
  rw [View.canon_unit_zero hz]
  simp only [View.ld_unit_zero (S := S512x3000) hz, View.ld_unit_zero (S := S512x1) hz]
  unfold k0_pay7
  dsimp only
  simp only [shapeCast_self, mulf_apply, subf_apply, divf_apply, maximumf_apply, sqrt_apply, broadcast_apply]
  rw [sum_row, sum_row, sum_row]
  simp only [mulf_apply]
  show (FloatOps.ofBits (F := Ideal) .f32 0x3F800000#32
      - Ideal.div (∑ k : Fin 3000, x0 (ix2 r k) * gtBlock (View.ld x1 r0_0) (View.ld x1 r0_1) (ix2 r k))
          (max (Ideal.sqrt (∑ k : Fin 3000, x0 (ix2 r k) * x0 (ix2 r k))) (FloatOps.ofBits (F := Ideal) .f32 0x322BCC77#32)
            * max (Ideal.sqrt (∑ k : Fin 3000, gtBlock (View.ld x1 r0_0) (View.ld x1 r0_1) (ix2 r k) * gtBlock (View.ld x1 r0_0) (View.ld x1 r0_1) (ix2 r k)))
                (FloatOps.ofBits (F := Ideal) .f32 0x322BCC77#32))) * x2 (ix2 r 0) = _
  simp only [gt_apply]
  rw [ld_col0 x1 r, ld_col1 x1 r]
  unfold rowK
  simp only [Ideal.ofBits_def]

end Cert.KernelIdeal.Hand

end
-- ==== Proof.KernelValue.lean ====
/-
  The kernel's run, read as mathematics.

  The 16 · 512 tokens are laid out as 8192 rows; grid point t holds rows 512 t … 512 t + 511, which are exactly the
  tokens of batch entry t. So the block of predicted attention at point t is x0[t, ·, ·], the block of times is
  x1[t, ·, ·] and the block of the mask is x2[t, ·]; by the row lemma the point writes back, at row p, the quotient
  form of the loss of token (t, p). The 16 blocks tile the column, so after the region the column holds the loss of
  token (b, t) at row 512 b + t (`final`). The lines after the region view the column as [16, 512] again, sum it, and
  divide by max (Σ mask) 1 (`tail`, `run`).
-/
import proofs.«127680_j58050777972822_1_alg».proof.Proof.KernelRow
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx
open Idealize.SL.Sem Cert.RowLoss
open Idealize.ShloMosaic.Pipeline (Dat)
open scoped BigOperators

/-! ## The result as a function of the three argument arrays -/

/-- The loss of token (b, t) in the quotient form: its row of predicted attention against its trapezoid, times its mask. -/
def tokLoss (x0 : S16x512x3000.Idx → EReal) (x1 : S16x512x2.Idx → EReal) (x2 : S16x512.Idx → EReal)
    (b : Fin 16) (t : Fin 512) : EReal :=
  rowK (fun k => x0 (ix3 b t k))
    (fun k => trapezoid (tokStart (x1 (ix3 b t 0))) (tokEnd (x1 (ix3 b t 0)) (x1 (ix3 b t 1))) (BitVec.ofNat 32 k.val))
    (x2 (ix2 b t))

/-- The column of the 8192 token losses: token (b, t) at row 512 b + t. -/
def lossCol (x0 : S16x512x3000.Idx → EReal) (x1 : S16x512x2.Idx → EReal) (x2 : S16x512.Idx → EReal) :
    S8192x1.Idx → EReal := fun j =>
  tokLoss x0 x1 x2 ⟨(j 0).val / 512, by have h : (j 0).val < 8192 := (j 0).isLt; omega⟩
    ⟨(j 0).val % 512, Nat.mod_lt _ (by decide)⟩

/-- Row 512 b + t of the column is the loss of token (b, t). -/
theorem lossCol_apply (x0 : S16x512x3000.Idx → EReal) (x1 : S16x512x2.Idx → EReal) (x2 : S16x512.Idx → EReal)
    (j : S8192x1.Idx) (b : Fin 16) (t : Fin 512) (h : (j 0).val = b.val * 512 + t.val) :
    lossCol x0 x1 x2 j = tokLoss x0 x1 x2 b t := by
  have hb : (⟨(j 0).val / 512, by have h : (j 0).val < 8192 := (j 0).isLt; omega⟩ : Fin 16) = b :=
    Fin.ext (by show (j 0).val / 512 = b.val; have := t.isLt; omega)
  have ht : (⟨(j 0).val % 512, Nat.mod_lt _ (by decide)⟩ : Fin 512) = t :=
    Fin.ext (by show (j 0).val % 512 = t.val; have := t.isLt; omega)
  unfold lossCol
  rw [hb, ht]

/-- The mean over the tokens: (Σ L) / max (Σ mask) 1, as the lines after the region compute it. -/
def meanLoss (L x2 : FVec Ideal S16x512 .f32) : FVec Ideal S_ .f32 :=
  Host.divf (Host.reduceAdd L (constant S_ .f32 0x00000000#32) reducesTo_S16x512_S_d0_1 h_S_)
    (maximumf (Host.reduceAdd x2 (constant S_ .f32 0x00000000#32) reducesTo_S16x512_S_d0_1 h_S_)
      (constant S_ .f32 0x3F800000#32))

variable (m : (ℓ : Loc nD τ sig) → Buf (Elt Ideal) ℓ) (ρ : Dev nD → PrngReg)

/-- The three argument arrays as launched. -/
abbrev a0 (c : Dev nD) : S16x512x3000.Idx → EReal := m ((c : Thread nD τ).loc main_arg0)
abbrev a1 (c : Dev nD) : S16x512x2.Idx → EReal := m ((c : Thread nD τ).loc main_arg1)
abbrev a2 (c : Dev nD) : S16x512.Idx → EReal := m ((c : Thread nD τ).loc main_arg2)

/-! ## The arrays as the region finds them: the arguments viewed as 8192 rows -/

theorem V_v0 (c : Dev nD) : (V m c main_v0 : S8192x3000.Idx → EReal)
    = shapeCast S8192x3000 (a0 m c) shapeCasts_S16x512x3000_S8192x3000 := by
  show StableHlo.after hostOps0 (fun b => m (c, b)) (Proc.devRef .tc main_v0) = _
  after_results
  rfl

theorem V_v1 (c : Dev nD) : (V m c main_v1 : S8192x2.Idx → EReal)
    = shapeCast S8192x2 (a1 m c) shapeCasts_S16x512x2_S8192x2 := by
  show StableHlo.after hostOps0 (fun b => m (c, b)) (Proc.devRef .tc main_v1) = _
  after_results
  rfl

theorem V_v2 (c : Dev nD) : (V m c main_v2 : S8192x1.Idx → EReal)
    = shapeCast S8192x1 (a2 m c) shapeCasts_S16x512_S8192x1 := by
  show StableHlo.after hostOps0 (fun b => m (c, b)) (Proc.devRef .tc main_v2) = _
  after_results
  rfl

/-! ## The blocks of a grid point are the rows of one batch entry -/

/-- The printed index maps, decided over the 16 grid points: every window's block at point t is block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A grid point as a batch entry. -/
def batchOf (t : Fin cfg0.N) : Fin 16 := ⟨t.val, by have h := t.isLt; have hN : cfg0.N = 16 := N_0; omega⟩

theorem pblk_apply (c : Dev nD) (t : Fin cfg0.N) (p : Fin 512) (k : Fin 3000) :
    (iblk m c 0 t : Vec Ideal S512x3000 .f32) (ix2 p k) = a0 m c (ix3 (batchOf t) p k) := by
  obtain ⟨e0, e1, -⟩ := idx_facts t
  unfold iblk
  rw [View.read_apply]
  show (V m c main_v0 : S8192x3000.Idx → EReal) _ = _
  rw [V_v0]
  refine shapeCast_apply _ _ _ _ ?_
  rw [Shape.rowMajor_val_three, Shape.rowMajor_val_two]
  show (t.val * 512 + p.val) * 3000 + k.val
    = (win0_0.index t 0 * 512 + 1 * p.val) * 3000 + (win0_0.index t 1 * 3000 + 1 * k.val)
  rw [e0, e1]; omega

theorem tblk_apply (c : Dev nD) (t : Fin cfg0.N) (p : Fin 512) (q : Fin 2) :
    (iblk m c 1 t : Vec Ideal S512x2 .f32) (ix2 p q) = a1 m c (ix3 (batchOf t) p q) := by
  obtain ⟨-, -, e2, e3, -⟩ := idx_facts t
  unfold iblk
  rw [View.read_apply]
  show (V m c main_v1 : S8192x2.Idx → EReal) _ = _
  rw [V_v1]
  refine shapeCast_apply _ _ _ _ ?_
  rw [Shape.rowMajor_val_three, Shape.rowMajor_val_two]
  show (t.val * 512 + p.val) * 2 + q.val
    = (win0_1.index t 0 * 512 + 1 * p.val) * 2 + (win0_1.index t 1 * 2 + 1 * q.val)
  rw [e2, e3]; omega

theorem mblk_apply (c : Dev nD) (t : Fin cfg0.N) (p : Fin 512) :
    (iblk m c 2 t : Vec Ideal S512x1 .f32) (ix2 p 0) = a2 m c (ix2 (batchOf t) p) := by
  obtain ⟨-, -, -, -, e4, e5, -⟩ := idx_facts t
  unfold iblk
  rw [View.read_apply]
  show (V m c main_v2 : S8192x1.Idx → EReal) _ = _
  rw [V_v2]
  refine shapeCast_apply _ _ _ _ ?_
  rw [Shape.rowMajor_val_two, Shape.rowMajor_val_two]
  show t.val * 512 + p.val
    = (win0_2.index t 0 * 512 + 1 * p.val) * 1 + (win0_2.index t 1 * 1 + 1 * 0)
  rw [e4, e5]; omega

/-! ## What a grid point writes back, the cover, and the column after the region -/

/-- Point t writes back, at row p of its block, the loss of token (t, p): its block of the loss column. -/
theorem flushed_eq (c : Dev nD) (t : Fin cfg0.N) :
    (dats m 0 c).flushed 3 t
      = ((cfg0.win 3).blk t).view.read (Elt Ideal) (lossCol (a0 m c) (a1 m c) (a2 m c)) := by
  show (cfg0.win 3).cut (grid0.coords t) ((dats m 0 c).after 3 t) = _
  rw [after0_3]
  funext y
  obtain ⟨p, q, rfl⟩ : ∃ (p : Fin 512) (q : Fin 1), y = ix2 p q := ⟨y 0, y 1, eq_ix2 y⟩
  obtain rfl : q = 0 := Subsingleton.elim _ _
  obtain ⟨-, -, -, -, -, -, e6, e7⟩ := idx_facts t
  show out0_3 (iblk m c 0 t) (iblk m c 1 t) (iblk m c 2 t) (ix2 p 0)
    = lossCol (a0 m c) (a1 m c) (a2 m c) (((cfg0.win 3).blk t).view.emb (ix2 p 0))
  refine ((out_row (iblk m c 0 t) (iblk m c 1 t) (iblk m c 2 t) p).trans ?_).trans
    (lossCol_apply (a0 m c) (a1 m c) (a2 m c) _ (batchOf t) p ?_).symm
  · unfold tokLoss
    simp only [pblk_apply m c t, tblk_apply m c t, mblk_apply m c t]
  · show win0_3.index t 0 * 512 + 1 * p.val = t.val * 512 + p.val
    rw [e6]; omega

/-- Every row of the column is in the block of its batch entry's grid point. -/
theorem cover (i : S8192x1.Idx) :
    ∃ t : Fin cfg0.N, (cfg0.win 3).flush t = true ∧ i ∈ ((cfg0.win 3).blk t).view.set := by
  have h0 : (i 0).val < 8192 := (i 0).isLt
  have h1 : (i 1).val < 1 := (i 1).isLt
  have hN : cfg0.N = 16 := N_0
  let t : Fin cfg0.N := ⟨(i 0).val / 512, by omega⟩
  obtain ⟨-, -, -, -, -, -, e6, e7⟩ := idx_facts t
  refine ⟨t, flush0_3 t, ?_⟩
  show i ∈ ((View.whole main_v3).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [e6]; show (i 0).val / 512 * 512 ≤ (i 0).val ∧ (i 0).val < (i 0).val / 512 * 512 + 512; omega
  | ⟨1, _⟩ =>
    show win0_3.index t 1 * 1 ≤ (i 1).val ∧ (i 1).val < win0_3.index t 1 * 1 + 1
    rw [e7]; omega

/-- After the region the output column holds the loss of token (b, t) at row 512 b + t. -/
theorem final (c : Dev nD) : (dats m 0 c).arrAt 3 cfg0.N = lossCol (a0 m c) (a1 m c) (a2 m c) :=
  (dats m 0 c).arrAt_eq_of_cover 3 _ (fun t _ => flushed_eq m c t) cover

/-! ## The lines after the region, and the run -/

/-- @main's result: the lines after the region view the column as [16, 512], sum it and divide by max (Σ mask) 1. -/
theorem tail (c : Dev nD) :
    Pipeline.afterTail₀ cfgs (dats m) 0 (V0 m) [hostOps1] c main_v8
      = meanLoss (shapeCast S16x512 (lossCol (a0 m c) (a1 m c) (a2 m c)) shapeCasts_S8192x1_S16x512) (a2 m c) := by
  unfold Pipeline.afterTail₀
  show StableHlo.after hostOps1 _ (Proc.devRef .tc main_v8) = _
  after_results
  have e3 : Pipeline.withArrays (cfgs 0).spec c (V0 m c) (fun w => (dats m 0 c).arrAt w (cfgs 0).N) (Proc.devRef .tc main_v3)
      = lossCol (a0 m c) (a1 m c) (a2 m c) :=
    (Pipeline.withArrays_arr spec0 launch0.win.arr_inj c _ _ 3).trans (final m c)
  have e2 : Pipeline.withArrays (cfgs 0).spec c (V0 m c) (fun w => (dats m 0 c).arrAt w (cfgs 0).N) (Proc.devRef .tc main_arg2)
      = a2 m c :=
    (Pipeline.withArrays_of_ne _ c (V0 m c) _ main_arg2 (by exact (by decide : ∀ w, Pipeline.arrRef spec0 w ≠ main_arg2))).trans
      (V_main_arg2 m c)
  rw [e3, e2]
  rfl

/-- The kernel's run: every weakly fair execution ends with @main's result at the mean of the token losses (quotient
    form) and the three arguments as launched. -/
theorem run : θ_run defs (onTc (τ := τ) (main (F := Ideal))) ⟨m, fun _ => 0, ρ⟩ fun r => ∀ c : Dev nD,
      r.2.mem ((c.tc : Thread nD τ).loc main_v8)
        = meanLoss (shapeCast S16x512 (lossCol (a0 m c) (a1 m c) (a2 m c)) shapeCasts_S8192x1_S16x512) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v8 (Pipeline.mem_restRefs_of main_v8 (by decide) (by decide))).trans (tail m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Hand

end
-- ==== Proof.RefRow.lean ====
/-
  The reference, read at one token.

  The reference keeps the tokens as a [16, 512] grid. From the two times of token (b, t) it computes the same first
  frame and end frame as the kernel (the same operations in the same order), the same trapezoid over the 3000 frames,
  and then the loss in the NORMALISED form: 1 minus the sum over the frames of (p / ‖p‖) · (g / ‖g‖), times the mask
  (`Cert.RowLoss.rowR`), each norm max (√ Σ x²) ε.
-/
import proofs.«127680_j58050777972822_1_alg».proof.Proof.Gen.ReferenceIdeal.Read
import proofs.«127680_j58050777972822_1_alg».proof.Proof.RowLoss
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.ValueIdx
open Cert.RowLoss
open scoped BigOperators

variable (x0 : S16x512x3000.Idx → EReal) (x1 : S16x512x2.Idx → EReal) (x2 : S16x512.Idx → EReal)

/-! ## A token's two frames -/

/-- The first frame of token (b, t), from its start time x1[b, t, 0]. -/
theorem ref_start (b : Fin 16) (t : Fin 512) :
    val_main_v10 (F := Ideal) x1 (ix2 b t) = tokStart (x1 (ix3 b t 0)) := by
  have h : idx_main_v0 (idx_main_v1 (ix2 b t)) = ix3 b t 0 := by
    funext a; apply Fin.ext
    match a with
    | ⟨0, _⟩ => show (b.val * 512 + t.val) / 512 = b.val; have := t.isLt; omega
    | ⟨1, _⟩ => show (b.val * 512 + t.val) / 1 % 512 = t.val; have := t.isLt; omega
    | ⟨2, _⟩ => rfl
  simp only [val_main_v10_apply, val_main_call0_v4_apply, val_main_call0_v3_apply, val_main_c_1_apply,
    val_main_call0_v2_apply, val_main_call0_v1_apply, val_main_call0_v0_apply, val_main_c_apply, val_main_v4_apply,
    val_main_v3_apply, val_main_v1_apply, val_main_v0_apply, val_main_v2_apply, val_main_cst_apply, h]
  rfl

/-- The end frame of token (b, t), from its two times. -/
theorem ref_end (b : Fin 16) (t : Fin 512) :
    val_main_v17 (F := Ideal) x1 (ix2 b t) = tokEnd (x1 (ix3 b t 0)) (x1 (ix3 b t 1)) := by
  have h : idx_main_v5 (idx_main_v6 (ix2 b t)) = ix3 b t 1 := by
    funext a; apply Fin.ext
    match a with
    | ⟨0, _⟩ => show (b.val * 512 + t.val) / 512 = b.val; have := t.isLt; omega
    | ⟨1, _⟩ => show (b.val * 512 + t.val) / 1 % 512 = t.val; have := t.isLt; omega
    | ⟨2, _⟩ => rfl
  simp only [val_main_v17_apply, val_main_v12_apply, val_main_v11_apply, val_main_c_2_apply, val_main_v16_apply,
    val_main_v14_apply, val_main_v13_apply, val_main_c_3_apply, val_main_v15_apply, val_main_c_4_apply, val_main_v9_apply,
    val_main_v8_apply, val_main_v6_apply, val_main_v5_apply, val_main_v7_apply, val_main_cst_0_apply, h, ref_start]
  rfl

/-! ## A token's trapezoid -/

/-- The target attention of token (b, t) at frame k is the trapezoid of its two frames. -/
theorem ref_gt (b : Fin 16) (t : Fin 512) (k : Fin 3000) :
    val_main_v76 (F := Ideal) x1 (ix3 b t k)
      = trapezoid (val_main_v10 (F := Ideal) x1 (ix2 b t)) (val_main_v17 (F := Ideal) x1 (ix2 b t)) (BitVec.ofNat 32 k.val) := by
  have h23 : idx_main_v19 (idx_main_v23 (ix3 b t k)) = ix2 b t := by
    funext a; apply Fin.ext; match a with | ⟨0, _⟩ => rfl | ⟨1, _⟩ => rfl
  have h38 : idx_main_v19 (idx_main_v38 (ix3 b t k)) = ix2 b t := by
    funext a; apply Fin.ext; match a with | ⟨0, _⟩ => rfl | ⟨1, _⟩ => rfl
  have h43 : idx_main_v19 (idx_main_v43 (ix3 b t k)) = ix2 b t := by
    funext a; apply Fin.ext; match a with | ⟨0, _⟩ => rfl | ⟨1, _⟩ => rfl
  have h34 : idx_main_v19 (idx_main_v34 (ix3 b t k)) = ix2 b t := by
    funext a; apply Fin.ext; match a with | ⟨0, _⟩ => rfl | ⟨1, _⟩ => rfl
  have h27 : idx_main_v20 (idx_main_v27 (ix3 b t k)) = ix2 b t := by
    funext a; apply Fin.ext; match a with | ⟨0, _⟩ => rfl | ⟨1, _⟩ => rfl
  have h54 : idx_main_v20 (idx_main_v54 (ix3 b t k)) = ix2 b t := by
    funext a; apply Fin.ext; match a with | ⟨0, _⟩ => rfl | ⟨1, _⟩ => rfl
  have h65 : idx_main_v20 (idx_main_v65 (ix3 b t k)) = ix2 b t := by
    funext a; apply Fin.ext; match a with | ⟨0, _⟩ => rfl | ⟨1, _⟩ => rfl
  have h60 : idx_main_v20 (idx_main_v60 (ix3 b t k)) = ix2 b t := by
    funext a; apply Fin.ext; match a with | ⟨0, _⟩ => rfl | ⟨1, _⟩ => rfl
  simp only [val_main_v76_apply, val_main_v29_apply, val_main_v24_apply, val_main_v22_apply, val_main_v21_apply,
    val_main_v18_apply, val_main_v23_apply, val_main_v19_apply, val_main_v28_apply, val_main_v26_apply, val_main_v25_apply,
    val_main_v27_apply, val_main_v20_apply, val_main_call3_v1_apply, val_main_call3_v0_apply, val_main_cst_14_apply,
    val_main_v75_apply, val_main_v40_apply, val_main_v35_apply, val_main_v33_apply, val_main_v32_apply, val_main_v34_apply,
    val_main_v31_apply, val_main_v30_apply, val_main_c_5_apply, val_main_v39_apply, val_main_v37_apply, val_main_v36_apply,
    val_main_v38_apply, val_main_v51_apply, val_main_v49_apply, val_main_v48_apply, val_main_v46_apply, val_main_v44_apply,
    val_main_v42_apply, val_main_v41_apply, val_main_v43_apply, val_main_v45_apply, val_main_c_6_apply, val_main_v47_apply,
    val_main_c_7_apply, val_main_v50_apply, val_main_cst_8_apply, val_main_v74_apply, val_main_v62_apply, val_main_v55_apply,
    val_main_v53_apply, val_main_v52_apply, val_main_v54_apply, val_main_v61_apply, val_main_v59_apply, val_main_v58_apply,
    val_main_v60_apply, val_main_v57_apply, val_main_v56_apply, val_main_c_9_apply, val_main_v73_apply, val_main_v72_apply,
    val_main_cst_12_apply, val_main_v71_apply, val_main_v69_apply, val_main_v68_apply, val_main_v66_apply, val_main_v64_apply,
    val_main_v63_apply, val_main_v65_apply, val_main_v67_apply, val_main_c_10_apply, val_main_v70_apply, val_main_cst_11_apply,
    val_main_call1_v1_apply, val_main_call1_v0_apply, val_main_cst_13_apply, h23, h38, h43, h34, h27, h54, h65, h60]
  rfl

/-! ## A token's loss, normalised form -/

/-- Entry (b, t) of the per-token loss: the normalised form over row (b, t) of the predicted attention and the
    token's target attention, times the mask. -/
theorem ref_row (b : Fin 16) (t : Fin 512) :
    val_main_v91 (F := Ideal) x0 x1 x2 (ix2 b t)
      = rowR (fun k => x0 (ix3 b t k)) (fun k => val_main_v76 (F := Ideal) x1 (ix3 b t k)) (x2 (ix2 b t)) := by
  have h88 : ∀ k : Fin 3000, idx_main_v88 (ix2 b t) k = ix3 b t k := fun k => by
    funext a; apply Fin.ext; match a with | ⟨0, _⟩ => rfl | ⟨1, _⟩ => rfl | ⟨2, _⟩ => rfl
  have hc5 : ∀ k : Fin 3000, idx_main_call5_v1 (ix2 b t) k = ix3 b t k := fun k => by
    funext a; apply Fin.ext; match a with | ⟨0, _⟩ => rfl | ⟨1, _⟩ => rfl | ⟨2, _⟩ => rfl
  have hc4 : ∀ k : Fin 3000, idx_main_call4_v1 (ix2 b t) k = ix3 b t k := fun k => by
    funext a; apply Fin.ext; match a with | ⟨0, _⟩ => rfl | ⟨1, _⟩ => rfl | ⟨2, _⟩ => rfl
  have h83 : ∀ k : Fin 3000, idx_main_call5_v2 (idx_main_v83 (ix3 b t k)) = ix2 b t := fun k => by
    funext a; apply Fin.ext; match a with | ⟨0, _⟩ => rfl | ⟨1, _⟩ => rfl
  have h85 : ∀ k : Fin 3000, idx_main_call4_v2 (idx_main_v85 (ix3 b t k)) = ix2 b t := fun k => by
    funext a; apply Fin.ext; match a with | ⟨0, _⟩ => rfl | ⟨1, _⟩ => rfl
  simp only [val_main_v91_apply, val_main_v90_apply, val_main_v89_apply, val_main_cst_18_apply, val_main_v88_apply,
    val_main_cst_17_apply, val_main_v87_apply, val_main_v84_apply, val_main_v83_apply, val_main_v82_apply, val_main_v80_apply,
    val_main_call5_v2_apply, val_main_call5_v1_apply, val_main_call5_cst_apply, val_main_call5_v0_apply, val_main_v81_apply,
    val_main_cst_16_apply, val_main_v86_apply, val_main_v85_apply, val_main_v79_apply, val_main_v77_apply,
    val_main_call4_v2_apply, val_main_call4_v1_apply, val_main_call4_cst_apply, val_main_call4_v0_apply, val_main_v78_apply,
    val_main_cst_15_apply, h88, hc5, hc4, h83, h85]
  simp only [Ideal.mulf_def, Ideal.subf_def, Ideal.hostDivf_def, Ideal.maximumf_def, Ideal.hostUnary_sqrt_def, Ideal.ofBits_def,
    Ideal.ofBits_zero_f32, zero_add]
  rfl

end Cert.ReferenceIdeal.Hand

end
-- ==== Proof.Finite.lean ====
/-
  What the precondition gives: every entry of the predicted attention is a real number.

  The precondition is the conjunction of three `all`s, one per argument, each of |x| < +∞ entry by entry. The first
  conjunct, read at an entry of the first argument, says max x (-x) < ⊤ in the extended reals, which excludes both
  infinities: the entry is a real.
-/
import proofs.«127680_j58050777972822_1_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.Pre_finite_inputs.Hand

open Cert.Pre_finite_inputs Idealize.ShloMosaic Idealize.ShloMosaic.ValueIdx

/-- The scalar shape has one index. -/
instance : Subsingleton S_.Idx := ⟨fun a b => funext fun d => d.elim0⟩

/-- The word of +∞ denotes the top of the extended reals. -/
theorem inf_eq : Ideal.ofBits .f32 0x7F800000#32 = ⊤ := by simp [Ideal.ofBits, Ideal.ieee]

/-- An extended real whose absolute value is below ⊤ is a real. -/
theorem real_of_abs_lt_top (y : EReal) (h : max y (-y) < ⊤) : ∃ r : ℝ, y = (r : EReal) := by
  induction y using EReal.rec with
  | bot => simp at h
  | top => simp at h
  | coe r => exact ⟨r, rfl⟩

variable [Facts]
open Facts

/-- Under the precondition every entry of the first argument is a real. -/
theorem arg0_real (x0 : FVec Ideal S16x512x3000 .f32) (x1 : FVec Ideal S16x512x2 .f32) (x2 : FVec Ideal S16x512 .f32)
    (h : fn (F := Ideal) x0 x1 x2 = fun _ => 1#1) (i : S16x512x3000.Idx) : ∃ r : ℝ, x0 i = (r : EReal) := by
  have h0 := congrFun h ix0
  dsimp only [fn] at h0
  have h1 := (IntOp.andi_eq_one.mp h0).1
  have h2 := (IntOp.andi_eq_one.mp h1).1
  have h3 := Host.reduce_andi_all _ _ _ _ _ h2 i
  have hb : (broadcastInDim S16x512x3000 ![] bcast_S_S16x512x3000 (constant (F := Ideal) S_ .f32 0x7F800000#32)) i = ⊤ :=
    (broadcastInDim_apply _ bcast_S_S16x512x3000 _ i ix0 (fun a => a.elim0)).trans inf_eq
  have h4 : Ideal.cmp .olt (max (x0 i) (-(x0 i)))
      ((broadcastInDim S16x512x3000 ![] bcast_S_S16x512x3000 (constant (F := Ideal) S_ .f32 0x7F800000#32)) i) = 1#1 := h3
  rw [hb] at h4
  refine real_of_abs_lt_top _ ?_
  by_contra hn
  simp [Ideal.cmp, hn] at h4

end Cert.Pre_finite_inputs.Hand

end
-- ==== Proof.Bridge.lean ====
/-
  The two results are one number.

  Both programs end with (Σ L) / max (Σ mask) 1 over a [16, 512] array L of token losses, with the same float words.
  The kernel's L is its loss column viewed as [16, 512]: entry (b, t) is row 512 b + t, the QUOTIENT form of the loss
  of token (b, t). The reference's L has at (b, t) the NORMALISED form of the same token's loss, over the same
  trapezoid (the two programs compute a token's frames by the same operations). When every entry of the predicted
  attention is a real the two forms agree (`Cert.RowLoss.row_eq`: the trapezoid's values are always reals), so the
  two arrays are equal entry by entry and the two results are the same term.
-/
import proofs.«127680_j58050777972822_1_alg».proof.Proof.KernelValue
import proofs.«127680_j58050777972822_1_alg».proof.Proof.RefRow

noncomputable section

namespace Cert.Bridge

open Idealize.ShloMosaic Idealize.ShloMosaic.ValueIdx Cert.RowLoss
open Cert.KernelIdeal.Hand Cert.ReferenceIdeal.Hand

/-- The reference's array of token losses is the kernel's loss column viewed as [16, 512]. -/
theorem losses_eq (x0 : Cert.ReferenceIdeal.S16x512x3000.Idx → EReal) (x1 : Cert.ReferenceIdeal.S16x512x2.Idx → EReal)
    (x2 : Cert.ReferenceIdeal.S16x512.Idx → EReal) (hfin : ∀ i, ∃ r : ℝ, x0 i = (r : EReal)) :
    Cert.ReferenceIdeal.Read.val_main_v91 (F := Ideal) x0 x1 x2
      = shapeCast Cert.KernelIdeal.S16x512 (lossCol x0 x1 x2) Cert.KernelIdeal.Gen.shapeCasts_S8192x1_S16x512 := by
  funext i
  obtain ⟨b, t, rfl⟩ : ∃ (b : Fin 16) (t : Fin 512), i = ix2 b t := ⟨i 0, i 1, eq_ix2 i⟩
  rw [ref_row]
  have ht := t.isLt
  refine Eq.symm ((shapeCast_apply _ _ (ix2 b t) (ix2 (⟨b.val * 512 + t.val, by omega⟩ : Fin 8192) (0 : Fin 1)) ?_).trans ?_)
  · rw [Shape.rowMajor_val_two, Shape.rowMajor_val_two]
    show (b.val * 512 + t.val) * 1 + 0 = b.val * 512 + t.val
    omega
  · rw [lossCol_apply x0 x1 x2 _ b t rfl]
    unfold tokLoss
    rw [show (fun k : Fin 3000 => Cert.ReferenceIdeal.Read.val_main_v76 (F := Ideal) x1 (ix3 b t k))
        = fun k : Fin 3000 => trapezoid (tokStart (x1 (ix3 b t 0))) (tokEnd (x1 (ix3 b t 0)) (x1 (ix3 b t 1))) (BitVec.ofNat 32 k.val)
      from funext fun k => by rw [ref_gt, ref_start, ref_end]]
    exact row_eq _ _ _ (fun k => hfin _) (fun k => trapezoid_real _ _ _)

/-- The reference's result is the kernel's: the same mean over equal arrays of token losses. -/
theorem result_eq (x0 : Cert.ReferenceIdeal.S16x512x3000.Idx → EReal) (x1 : Cert.ReferenceIdeal.S16x512x2.Idx → EReal)
    (x2 : Cert.ReferenceIdeal.S16x512.Idx → EReal) (hfin : ∀ i, ∃ r : ℝ, x0 i = (r : EReal)) :
    Cert.ReferenceIdeal.Read.val_main_v95 (F := Ideal) x0 x1 x2
      = meanLoss (shapeCast Cert.KernelIdeal.S16x512 (lossCol x0 x1 x2) Cert.KernelIdeal.Gen.shapeCasts_S8192x1_S16x512) x2 := by
  unfold Cert.ReferenceIdeal.Read.val_main_v95 Cert.ReferenceIdeal.Read.val_main_v92
  rw [losses_eq x0 x1 x2 hfin]
  rfl

end Cert.Bridge

end
-- ==== Proof.lean ====
/-
  An attention-alignment loss: kernel against reference, over the extended reals.

  For each of 16 · 512 tokens both programs build the token's target attention over 3000 audio frames, a trapezoid
  fixed by the token's start and end times, and take one minus the cosine between it and the token's row of predicted
  attention, times the token's mask; the result is the sum of these over the tokens divided by max (Σ mask) 1.
  They differ in one place. The kernel divides the dot product by the product of the two clamped norms,
  (Σ p g) / (‖p‖ ‖g‖); the reference normalises first and sums, Σ (p / ‖p‖) (g / ‖g‖). The clamped norms are reals
  that are at least the float nearest 1e-8, and the trapezoid's values are reals, so once the predicted attention is
  finite, which is the precondition, the common factor moves out of the sum and the two agree (Proof/RowLoss.lean).
  Everything else is the same operation on both sides: the times to frames (multiply by 12.5, cut toward zero, clamp),
  the comparisons and selects of the trapezoid, the sums over the frames, the square roots, the final mean.

  The kernel's run is read off its generated frame: what a grid point writes back (Proof/KernelRow.lean), the 16
  blocks tiling the loss column and the lines after the region (Proof/KernelValue.lean). The reference's run is its
  generated one, read stage by stage at a token (Proof/RefRow.lean). Proof/Finite.lean opens the precondition and
  Proof/Bridge.lean joins the two results. No operation was rewritten when the kernel was idealized, so there is
  nothing to preserve.
-/
import proofs.«127680_j58050777972822_1_alg».proof.Defs
import proofs.«127680_j58050777972822_1_alg».proof.Proof.Gen.Kernel
import proofs.«127680_j58050777972822_1_alg».proof.Proof.Gen.Kernel.Skeleton
import proofs.«127680_j58050777972822_1_alg».proof.Proof.Gen.Kernel.Launch
import proofs.«127680_j58050777972822_1_alg».proof.Proof.Gen.Kernel.Points
import proofs.«127680_j58050777972822_1_alg».proof.Proof.Gen.Kernel.Frame
import proofs.«127680_j58050777972822_1_alg».proof.Proof.Gen.KernelIdeal
import proofs.«127680_j58050777972822_1_alg».proof.Proof.Gen.KernelIdeal.Skeleton
import proofs.«127680_j58050777972822_1_alg».proof.Proof.Gen.KernelIdeal.Launch
import proofs.«127680_j58050777972822_1_alg».proof.Proof.Gen.KernelIdeal.Points
import proofs.«127680_j58050777972822_1_alg».proof.Proof.Gen.KernelIdeal.Frame
import proofs.«127680_j58050777972822_1_alg».proof.Proof.Gen.ReferenceIdeal
import proofs.«127680_j58050777972822_1_alg».proof.Proof.Gen.Pre_finite_inputs
import proofs.«127680_j58050777972822_1_alg».proof.Proof.Gen.ReferenceIdeal.Run
import proofs.«127680_j58050777972822_1_alg».proof.Proof.Gen.ReferenceIdeal.Read
import proofs.«127680_j58050777972822_1_alg».proof.Proof.RowLoss
import proofs.«127680_j58050777972822_1_alg».proof.Proof.KernelRow
import proofs.«127680_j58050777972822_1_alg».proof.Proof.KernelValue
import proofs.«127680_j58050777972822_1_alg».proof.Proof.RefRow
import proofs.«127680_j58050777972822_1_alg».proof.Proof.Finite
import proofs.«127680_j58050777972822_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the three arguments, the first of them finite, both runs end with the mean of the token
    losses: the kernel's in the quotient form, the reference's in the normalised form, one number. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v95_eq, (hagree c).1, (hagree c).2.1, (hagree c).2.2]
  exact Cert.Bridge.result_eq _ _ _ (Cert.Pre_finite_inputs.Hand.arg0_real _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
